-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024 : Shape := ⟨2, ![256, 1024]⟩
abbrev S1024x1024 : Shape := ⟨2, ![1024, 1024]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S256x1024 .f32) (main_arg1 : FVec F S1024x1024 .f32) (main_arg2 : FVec F S1024x1024 .f32) (main_arg3 : FVec F S1024x1024 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S256x1024 : Shape := ⟨2, ![256, 1024]⟩
abbrev S1024x1024 : Shape := ⟨2, ![1024, 1024]⟩
abbrev S8x1024 : Shape := ⟨2, ![8, 1024]⟩
abbrev S128x1024 : Shape := ⟨2, ![128, 1024]⟩
abbrev S8x128 : Shape := ⟨2, ![8, 128]⟩
abbrev S8x1x1024 : Shape := ⟨3, ![8, 1, 1024]⟩
abbrev S1x128x1024 : Shape := ⟨3, ![1, 128, 1024]⟩
abbrev S8x128x1024 : Shape := ⟨3, ![8, 128, 1024]⟩

abbrev nBuf : Space → Nat
  | .hbm => 5
  | .vmem => 10
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S256x1024, .f32⟩
  | .local _ .vmem, ⟨0, _⟩ => ⟨S8x1024, .f32⟩
  | .local _ .vmem, ⟨1, _⟩ => ⟨S8x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S8x128, .f32⟩
  | .local _ .vmem, ⟨9, _⟩ => ⟨S8x128, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S8x1024_S8x1024_0_0 : ∀ a, (![0, 0] : Fin 2 → Nat) a + S8x1024.size a ≤ S8x1024.size a
  h_S8x1024 : 0 < S8x1024.numel
  inb_S128x1024_S128x1024_0_0 : ∀ a, (![0, 0] : Fin 2 → Nat) a + S128x1024.size a ≤ S128x1024.size a
  h_S128x1024 : 0 < S128x1024.numel
  shapeCasts_S8x1024_S8x1x1024 : S8x1024.ShapeCasts S8x1x1024
  shapeCasts_S128x1024_S1x128x1024 : S128x1024.ShapeCasts S1x128x1024
  broadcasts_S8x1x1024_S8x128x1024 : S8x1x1024.Broadcasts S8x128x1024
  broadcasts_S1x128x1024_S8x128x1024 : S1x128x1024.Broadcasts S8x128x1024
  reduces_S8x128x1024_S8x128 : S8x128x1024.Reduces [2] S8x128
  inb_S8x128_S8x128_0_0 : ∀ a, (![0, 0] : Fin 2 → Nat) a + S8x128.size a ≤ S8x128.size a
  h_S8x128 : 0 < S8x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024.size a ≤ S256x1024.size a
  hwx0_0 : ∀ i : grid0.Coords, EltTy.bits .f32 = 32 ∨ (Rect.block (s := S256x1024) S8x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S1024x1024.size a
  hwx0_1 : ∀ i : grid0.Coords, EltTy.bits .f32 = 32 ∨ (Rect.block (s := S1024x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S1024x1024.size a
  hwx0_2 : ∀ i : grid0.Coords, EltTy.bits .f32 = 32 ∨ (Rect.block (s := S1024x1024) S128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S1024x1024.size a
  hwx0_3 : ∀ i : grid0.Coords, EltTy.bits .f32 = 32 ∨ (Rect.block (s := S1024x1024) S128x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S256x1024.size a
  hwx0_4 : ∀ i : grid0.Coords, EltTy.bits .f32 = 32 ∨ (Rect.block (s := S256x1024) S8x128.size (cc0_transform_4 i) (hinb0_4 i)).WholeWords (EltTy.packing .f32)

variable [Facts₀]

abbrev win0_0 : Pipeline.Window sig grid0 :=
  Pipeline.Window.ofSpec (Memref.whole main_arg0) S8x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x1024 : Shape := ⟨2, ![256, 1024]⟩
abbrev S1024x1024 : Shape := ⟨2, ![1024, 1024]⟩
abbrev S256x1x1024 : Shape := ⟨3, ![256, 1, 1024]⟩
abbrev S1x1024x1024 : Shape := ⟨3, ![1, 1024, 1024]⟩
abbrev S256x1024x1024 : Shape := ⟨3, ![256, 1024, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S256x1x1024, .f32⟩
  | .hbm, ⟨5, _⟩ => ⟨S1x1024x1024, .f32⟩
  | .hbm, ⟨6, _⟩ => ⟨S256x1024x1024, .f32⟩
  | .hbm, ⟨7, _⟩ => ⟨S256x1024x1024, .f32⟩
  | .hbm, ⟨8, _⟩ => ⟨S256x1024x1024, .f32⟩
  | .hbm, ⟨9, _⟩ => ⟨S1x1024x1024, .f32⟩
  | .hbm, ⟨10, _⟩ => ⟨S256x1024x1024, .f32⟩
  | .hbm, ⟨11, _⟩ => ⟨S256x1024x1024, .f32⟩
  | .hbm, ⟨12, _⟩ => ⟨S256x1024x1024, .f32⟩
  | .hbm, ⟨13, _⟩ => ⟨S_, .f32⟩
  | .hbm, ⟨14, _⟩ => ⟨S256x1024x1024, .f32⟩
  | .hbm, ⟨15, _⟩ => ⟨S256x1024x1024, .f32⟩
  | .hbm, ⟨16, _⟩ => ⟨S256x1024x1024, .f32⟩
  | .hbm, ⟨17, _⟩ => ⟨S256x1024x1024, .f32⟩
  | .hbm, ⟨18, _⟩ => ⟨S256x1024x1024, .f32⟩
  | .hbm, ⟨19, _⟩ => ⟨S1x1024x1024, .f32⟩
  | .hbm, ⟨20, _⟩ => ⟨S256x1024x1024, .f32⟩
  | .hbm, ⟨21, _⟩ => ⟨S256x1024x1024, .f32⟩
  | .hbm, ⟨22, _⟩ => ⟨S_, .f32⟩
  | .hbm, ⟨23, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  bcast_S256x1024_S256x1x1024_0_2 : S256x1024.BroadcastsInDim S256x1x1024 (![0, 2] : Fin 2 → Fin S256x1x1024.rank)
  bcast_S1024x1024_S1x1024x1024_1_2 : S1024x1024.BroadcastsInDim S1x1024x1024 (![1, 2] : Fin 2 → Fin S1x1024x1024.rank)
  bcast_S256x1x1024_S256x1024x1024_0_1_2 : S256x1x1024.BroadcastsInDim S256x1024x1024 (![0, 1, 2] : Fin 3 → Fin S256x1024x1024.rank)
  bcast_S1x1024x1024_S256x1024x1024_0_1_2 : S1x1024x1024.BroadcastsInDim S256x1024x1024 (![0, 1, 2] : Fin 3 → Fin S256x1024x1024.rank)
  bcast_S_S256x1024x1024 : S_.BroadcastsInDim S256x1024x1024 (![] : Fin 0 → Fin S256x1024x1024.rank)
  reducesTo_S256x1024x1024_S256x1024_d2 : S256x1024x1024.ReducesTo [2] S256x1024
  h_S_ : 0 < S_.numel

variable [Facts₀]

class Facts : Prop extends Facts₀ where

variable [Facts]
-- ==== Proof.Wavelet.lean ====
/-
  The wavelet layer both programs compute, as one function of the four argument arrays.

  For a batch row `b` and an output feature `o` the layer's value is a sum over the 1024 input features `i`:

      out[b, o] = ∑ᵢ w[o, i] · ψ(z[b, o, i]),     z[b, o, i] = (x[b, i] − t[o, i]) / s[o, i],

  with ψ the derivative-of-Gaussian wavelet ψ(z) = (−z) · exp((−½ · z) · z). Everything is read on the extended
  reals: the quotient is the extended reals' `Ideal.div`, the exponential their `Ideal.exp`, and −½ is kept as the
  float word that denotes it (the same word on both sides of the certificate, so it is never evaluated). The
  grouping (−½ · z) · z and the factor order w · (−z · exp …) are the ones both programs use, so no law of the
  extended reals beyond `0 − z = −z` and `0 + a = a` is needed to join them, and finiteness of the inputs plays
  no part.
-/
import Idealize.ShloMosaic.PureOps.Ideal
import Idealize.ShloMosaic.Lib.ValueIdx

noncomputable section

open scoped BigOperators

namespace Cert.Wavelet

open Idealize.ShloMosaic Idealize.ShloMosaic.ValueIdx

/-- The scale −½ of the Gaussian's exponent, as the float word that denotes it. -/
abbrev negHalf : EReal := Ideal.ofBits .f32 0xBF000000#32

/-- The input shifted by the translation and divided by the scale. -/
def offset (x s t : EReal) : EReal := Ideal.div (x - t) s

/-- The derivative-of-Gaussian wavelet: ψ(z) = (−z) · exp((−½ · z) · z). -/
def dog (z : EReal) : EReal := -z * Ideal.exp (negHalf * z * z)

/-- One input feature's contribution to an output: the weight times the wavelet of the scaled offset. -/
def summand (x w s t : EReal) : EReal := w * dog (offset x s t)

/-- The layer: at (b, o), the sum over the input features `k` of `summand` of x[b, k], w[o, k], s[o, k], t[o, k]. -/
def layer (X : (⟨2, ![256, 1024]⟩ : Shape).Idx → EReal) (W S T : (⟨2, ![1024, 1024]⟩ : Shape).Idx → EReal) :
    (⟨2, ![256, 1024]⟩ : Shape).Idx → EReal :=
  fun j => ∑ k : Fin 1024, summand (X (ix2 (j 0) k)) (W (ix2 (j 1) k)) (S (ix2 (j 1) k)) (T (ix2 (j 1) k))

end Cert.Wavelet

end
-- ==== Proof.HostSide.lean ====
/-
  The reference's result is the wavelet layer.

  The reference broadcasts x[b, i] along the output features and w, s, t along the batch to [256, 1024, 1024],
  forms w · (−z · exp((−½ · z) · z)) there with z = (x − t) / s, and sums over the last axis from the initial
  value 0. Read at an index (b, o), each broadcast picks the operand's entry at (b, k) or (o, k), so the stage is
  `0 + ∑ₖ summand x[b, k] w[o, k] s[o, k] t[o, k]`; the zero word denotes 0 and `0 + a = a` on the extended reals.
-/
import proofs.«134521_j78512002171115_1_alg».proof.Proof.Gen.ReferenceIdeal.Read
import proofs.«134521_j78512002171115_1_alg».proof.Proof.Wavelet
import Idealize.ShloMosaic.PureOps.Ideal.Laws
import Idealize.ShloMosaic.Lib.ValueIdx

noncomputable section

open scoped BigOperators

namespace Cert.Wavelet.HostSide

open Idealize.ShloMosaic Idealize.ShloMosaic.ValueIdx
open Cert.ReferenceIdeal Cert.ReferenceIdeal.Read

/-- The two broadcasts of x, composed, read (b, o, k) at (b, k). -/
theorem at_x (i : S256x1024.Idx) (k : Fin 1024) :
    idx_main_v0 (idx_main_v2 (idx_main_v17 i k)) = (ix2 (i 0) k : S256x1024.Idx) :=
  funext fun a => Fin.ext (by match a with | ⟨0, _⟩ => rfl | ⟨1, _⟩ => rfl)

/-- The two broadcasts of the translation, composed, read (b, o, k) at (o, k). -/
theorem at_t (i : S256x1024.Idx) (k : Fin 1024) :
    idx_main_v1 (idx_main_v3 (idx_main_v17 i k)) = (ix2 (i 1) k : S1024x1024.Idx) :=
  funext fun a => Fin.ext (by match a with | ⟨0, _⟩ => rfl | ⟨1, _⟩ => rfl)

/-- The two broadcasts of the scale, composed, read (b, o, k) at (o, k). -/
theorem at_s (i : S256x1024.Idx) (k : Fin 1024) :
    idx_main_v5 (idx_main_v6 (idx_main_v17 i k)) = (ix2 (i 1) k : S1024x1024.Idx) :=
  funext fun a => Fin.ext (by match a with | ⟨0, _⟩ => rfl | ⟨1, _⟩ => rfl)

/-- The two broadcasts of the weight, composed, read (b, o, k) at (o, k). -/
theorem at_w (i : S256x1024.Idx) (k : Fin 1024) :
    idx_main_v14 (idx_main_v15 (idx_main_v17 i k)) = (ix2 (i 1) k : S1024x1024.Idx) :=
  funext fun a => Fin.ext (by match a with | ⟨0, _⟩ => rfl | ⟨1, _⟩ => rfl)

/-- The reference's last stage, at `Ideal`, is `layer` of its four arguments. -/
theorem stage_eq_layer (X : (⟨S256x1024, .f32⟩ : BufTy).Contents (Elt Ideal))
    (W S T : (⟨S1024x1024, .f32⟩ : BufTy).Contents (Elt Ideal)) :
    val_main_v17 (F := Ideal) X W S T = layer X W S T := by
  funext i
  rw [val_main_v17_apply, val_main_cst_0_apply, Ideal.ofBits_def, Ideal.ofBits_zero_f32, zero_add]
  unfold layer
  refine Finset.sum_congr rfl fun k _ => ?_
  simp only [val_main_v16_apply, val_main_v15_apply, val_main_v14_apply, val_main_v13_apply, val_main_v12_apply,
    val_main_v11_apply, val_main_v10_apply, val_main_v9_apply, val_main_cst_apply, val_main_v8_apply,
    val_main_v7_apply, val_main_v6_apply, val_main_v5_apply, val_main_v4_apply, val_main_v3_apply, val_main_v2_apply,
    val_main_v1_apply, val_main_v0_apply, at_x, at_t, at_s, at_w,
    Ideal.mulf_def, Ideal.subf_def, Ideal.hostDivf_def, Ideal.hostNegf_def, Ideal.negf_def, Ideal.hostUnary_exp_def,
    Ideal.ofBits_def, summand, dog, offset]

end Cert.Wavelet.HostSide

end
-- ==== Proof.TileSide.lean ====
/-
  One tile of the kernel is the wavelet layer on the tile's rows.

  At a grid point the body holds an [8, 1024] block of x and [128, 1024] blocks of w, s and t. It inserts a unit axis
  into each ([8, 1, 1024] and [1, 128, 1024]), broadcasts all four to [8, 128, 1024], forms
  w · ((0 − z) · exp((−½ · z) · z)) with z = (x − t) / s there, and sums the last axis. Read at (p, q, k) the
  broadcast x block is its entry (p, k) and the broadcast w, s, t blocks are their entries (q, k); the lane sum at
  (p, q) is the sum over k; and `0 − z = −z` on the extended reals. So the stored [8, 128] tile is, entry by entry,
  `∑ₖ summand x[p, k] w[q, k] s[q, k] t[q, k]`.
-/
import proofs.«134521_j78512002171115_1_alg».proof.Proof.Gen.KernelIdeal.Skeleton
import proofs.«134521_j78512002171115_1_alg».proof.Proof.Wavelet
import Idealize.ShloMosaic.PureOps.Ideal.Laws
import Idealize.ShloMosaic.Lib.ValueIdx
import Idealize.ShloMosaic.Lib.Pipeline.Value

noncomputable section

open scoped BigOperators

namespace Cert.Wavelet.TileSide

open Idealize.ShloMosaic Idealize.ShloMosaic.ValueIdx
open Cert.KernelIdeal Cert.KernelIdeal.Gen

section Layout
variable {α : Type}

/-- A block of rows given a unit middle axis and broadcast over 128 output features reads, at (p, q, k), its entry (p, k). -/
theorem rows_spread (v : S8x1024.Idx → α) (h1 : S8x1024.ShapeCasts S8x1x1024) (h2 : S8x1x1024.Broadcasts S8x128x1024)
    (p : Fin 8) (q : Fin 128) (k : Fin 1024) :
    broadcastTo S8x128x1024 (shapeCast S8x1x1024 v h1) h2 (ix3 p q k) = v (ix2 p k) := by
  refine (broadcastTo_apply _ h2 (ix3 p q k) (ix3 p (0 : Fin 1) k) fun a => ?_).trans ?_
  · match a with
    | ⟨0, _⟩ => show p.val = if (8 : Nat) = 1 then 0 else p.val; rw [if_neg (by decide)]
    | ⟨1, _⟩ => show 0 = if (1 : Nat) = 1 then 0 else q.val; rw [if_pos rfl]
    | ⟨2, _⟩ => show k.val = if (1024 : Nat) = 1 then 0 else k.val; rw [if_neg (by decide)]
  · refine shapeCast_apply v h1 (ix3 p (0 : Fin 1) k) (ix2 p k) ?_
    rw [Shape.rowMajor_val_two, Shape.rowMajor_val_three]
    show p.val * 1024 + k.val = (p.val * 1 + 0) * 1024 + k.val
    omega

/-- A block of per-feature rows given a unit leading axis and broadcast over 8 batch rows reads, at (p, q, k), its entry (q, k). -/
theorem features_spread (v : S128x1024.Idx → α) (h1 : S128x1024.ShapeCasts S1x128x1024) (h2 : S1x128x1024.Broadcasts S8x128x1024)
    (p : Fin 8) (q : Fin 128) (k : Fin 1024) :
    broadcastTo S8x128x1024 (shapeCast S1x128x1024 v h1) h2 (ix3 p q k) = v (ix2 q k) := by
  refine (broadcastTo_apply _ h2 (ix3 p q k) (ix3 (0 : Fin 1) q k) fun a => ?_).trans ?_
  · match a with
    | ⟨0, _⟩ => show 0 = if (1 : Nat) = 1 then 0 else p.val; rw [if_pos rfl]
    | ⟨1, _⟩ => show q.val = if (128 : Nat) = 1 then 0 else q.val; rw [if_neg (by decide)]
    | ⟨2, _⟩ => show k.val = if (1024 : Nat) = 1 then 0 else k.val; rw [if_neg (by decide)]
  · refine shapeCast_apply v h1 (ix3 (0 : Fin 1) q k) (ix2 q k) ?_
    rw [Shape.rowMajor_val_two, Shape.rowMajor_val_three]
    show q.val * 1024 + k.val = (0 * 128 + q.val) * 1024 + k.val
    omega

end Layout

/-- The stored tile at (p, q): the sum over the input features of the weight times the wavelet of the scaled offset,
    of row p of the x block and row q of the w, s, t blocks. -/
theorem tile_entry (v0 : Vec Ideal S8x1024 .f32) (v1 v2 v3 : Vec Ideal S128x1024 .f32) (p : Fin 8) (q : Fin 128) :
    k0_pay1 (F := Ideal) v0 v1 v2 v3 (ix2 p q)
      = ∑ k : Fin 1024, summand (v0 (ix2 p k)) (v1 (ix2 q k)) (v2 (ix2 q k)) (v3 (ix2 q k)) := by
  unfold k0_pay1
  refine (Ideal.multiReduction_add_single _ 0x00000000#32 reduces_S8x128x1024_S8x128 (.inl rfl) rfl (ix2 p q)).trans ?_
  refine Finset.sum_congr rfl fun k _ => ?_
  have hj : reduces_S8x128x1024_S8x128.lift (ix2 p q) k = (ix3 p q k : S8x128x1024.Idx) :=
    funext fun a => Fin.ext (by match a with | ⟨0, _⟩ => rfl | ⟨1, _⟩ => rfl | ⟨2, _⟩ => rfl)
  refine (congrArg _ hj).trans ?_
  simp only [mulf, subf, divf, exp, broadcast,
    rows_spread v0 shapeCasts_S8x1024_S8x1x1024 broadcasts_S8x1x1024_S8x128x1024 p q k,
    features_spread v1 shapeCasts_S128x1024_S1x128x1024 broadcasts_S1x128x1024_S8x128x1024 p q k,
    features_spread v2 shapeCasts_S128x1024_S1x128x1024 broadcasts_S1x128x1024_S8x128x1024 p q k,
    features_spread v3 shapeCasts_S128x1024_S1x128x1024 broadcasts_S1x128x1024_S8x128x1024 p q k,
    Scalar.ofBits, Ideal.mulf_def, Ideal.subf_def, Ideal.divf_def, Ideal.exp_def, Ideal.ofBits_def, Ideal.ofBits_zero_f32,
    zero_sub, summand, dog, offset]

end Cert.Wavelet.TileSide

end
-- ==== Proof.Tiles.lean ====
/-
  The kernel's result array is the wavelet layer of its arguments.

  The grid has 8 × 32 points; point (oi, bi) reads rows 8·bi … 8·bi + 7 of x (all 1024 columns) and rows
  128·oi … 128·oi + 127 of w, s and t, and writes the [8, 128] tile at block (bi, oi) of the [256, 1024] result. By
  `tile_entry` the tile's entry (p, q) is the row sum of `summand` over row p of the x block and row q of the w, s, t
  blocks, which are rows 8·bi + p of x and 128·oi + q of w, s, t: the entry (8·bi + p, 128·oi + q) of `layer`. The 256
  tiles are written once each and tile the result, so after the run the result array is `layer` of the argument
  arrays, everywhere.
-/
import proofs.«134521_j78512002171115_1_alg».proof.Proof.Gen.KernelIdeal.Value
import proofs.«134521_j78512002171115_1_alg».proof.Proof.TileSide
import Idealize.ShloMosaic.Lib.Pipeline.Value

noncomputable section

open scoped BigOperators

namespace Cert.Wavelet.Tiles

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The five index maps over the grid: the x window's block row is the result tile's block row, the w, s, t windows'
    block row is the result tile's block column, every input block spans all columns, and the tile's block indices
    stay inside 32 × 8. -/
theorem block_indices : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (1 : Fin 2) ∧ win0_2.index t (1 : Fin 2) = 0
    ∧ win0_3.index t (0 : Fin 2) = win0_4.index t (1 : Fin 2) ∧ win0_3.index t (1 : Fin 2) = 0
    ∧ win0_4.index t (0 : Fin 2) ≤ 31 ∧ win0_4.index t (1 : Fin 2) ≤ 7 :=
  (by decide +kernel : ∀ t : Fin grid0.N, _)

/-- Every one of the 32 × 8 tiles of the result is some grid point's. -/
theorem every_tile : ∀ (q0 : Fin 32) (q1 : Fin 8), ∃ t : Fin cfg0.N, win0_4.index t = ![q0.val, q1.val] :=
  (by decide +kernel : ∀ (q0 : Fin 32) (q1 : Fin 8), ∃ t : Fin grid0.N, win0_4.index t = ![q0.val, q1.val])

/-- What point `t` writes back is its tile of `layer` of the argument arrays as the region finds them. -/
theorem tile_written (c : Dev nD) (t : Fin cfg0.N) :
    (dats m 0 c).flushed 4 t = ((cfg0.win 4).blk t).view.read (Elt Ideal)
      (layer (V m c main_arg0) (V m c main_arg1) (V m c main_arg2) (V m c main_arg3)) := by
  rw [Value.flushed4]
  unfold out0_4
  rw [View.canon_unit_zero origin]
  simp only [View.ld_unit_zero (S := S8x1024) origin, View.ld_unit_zero (S := S128x1024) origin]
  obtain ⟨e0, e1, e2, e3, e4, e5, e6, e7, -, -⟩ := block_indices t
  funext y
  show k0_pay1 (F := Ideal) (iblk m c 0 t) (iblk m c 1 t) (iblk m c 2 t) (iblk m c 3 t) y
    = layer (V m c main_arg0) (V m c main_arg1) (V m c main_arg2) (V m c main_arg3) (((cfg0.win 4).blk t).view.emb y)
  have hy : y = ix2 (y 0) (y 1) := eq_ix2 y
  refine (congrArg (k0_pay1 (F := Ideal) (iblk m c 0 t) (iblk m c 1 t) (iblk m c 2 t) (iblk m c 3 t)) hy).trans ?_
  refine (TileSide.tile_entry (iblk m c 0 t) (iblk m c 1 t) (iblk m c 2 t) (iblk m c 3 t) (y 0) (y 1)).trans ?_
  unfold layer
  refine Finset.sum_congr rfl fun k _ => ?_
  have hx : (iblk m c 0 t : Vec Ideal S8x1024 .f32) (ix2 (y 0) k)
      = V m c main_arg0 (ix2 ((((cfg0.win 4).blk t).view.emb y) 0) k) := by
    show V m c main_arg0 (((cfg0.win 0).blk t).view.emb (ix2 (y 0) k)) = _
    refine congrArg _ (funext fun a => Fin.ext ?_)
    match a with
    | ⟨0, _⟩ => show win0_0.index t (0 : Fin 2) * 8 + 1 * (y 0).val = win0_4.index t (0 : Fin 2) * 8 + 1 * (y 0).val; rw [e0]
    | ⟨1, _⟩ => show win0_0.index t (1 : Fin 2) * 1024 + 1 * k.val = k.val; rw [e1]; omega
  have hw : (iblk m c 1 t : Vec Ideal S128x1024 .f32) (ix2 (y 1) k)
      = V m c main_arg1 (ix2 ((((cfg0.win 4).blk t).view.emb y) 1) k) := by
    show V m c main_arg1 (((cfg0.win 1).blk t).view.emb (ix2 (y 1) k)) = _
    refine congrArg _ (funext fun a => Fin.ext ?_)
    match a with
    | ⟨0, _⟩ => show win0_1.index t (0 : Fin 2) * 128 + 1 * (y 1).val = win0_4.index t (1 : Fin 2) * 128 + 1 * (y 1).val; rw [e2]
    | ⟨1, _⟩ => show win0_1.index t (1 : Fin 2) * 1024 + 1 * k.val = k.val; rw [e3]; omega
  have hs : (iblk m c 2 t : Vec Ideal S128x1024 .f32) (ix2 (y 1) k)
      = V m c main_arg2 (ix2 ((((cfg0.win 4).blk t).view.emb y) 1) k) := by
    show V m c main_arg2 (((cfg0.win 2).blk t).view.emb (ix2 (y 1) k)) = _
    refine congrArg _ (funext fun a => Fin.ext ?_)
    match a with
    | ⟨0, _⟩ => show win0_2.index t (0 : Fin 2) * 128 + 1 * (y 1).val = win0_4.index t (1 : Fin 2) * 128 + 1 * (y 1).val; rw [e4]
    | ⟨1, _⟩ => show win0_2.index t (1 : Fin 2) * 1024 + 1 * k.val = k.val; rw [e5]; omega
  have ht : (iblk m c 3 t : Vec Ideal S128x1024 .f32) (ix2 (y 1) k)
      = V m c main_arg3 (ix2 ((((cfg0.win 4).blk t).view.emb y) 1) k) := by
    show V m c main_arg3 (((cfg0.win 3).blk t).view.emb (ix2 (y 1) k)) = _
    refine congrArg _ (funext fun a => Fin.ext ?_)
    match a with
    | ⟨0, _⟩ => show win0_3.index t (0 : Fin 2) * 128 + 1 * (y 1).val = win0_4.index t (1 : Fin 2) * 128 + 1 * (y 1).val; rw [e6]
    | ⟨1, _⟩ => show win0_3.index t (1 : Fin 2) * 1024 + 1 * k.val = k.val; rw [e7]; omega
  rw [hx, hw, hs, ht]

/-- An index of the result is in point `t`'s tile iff each coordinate is in the tile's range on its axis. -/
theorem in_tile (t : Fin cfg0.N) (i : S256x1024.Idx) :
    i ∈ ((cfg0.win 4).blk t).view.set ↔ ∀ a : Fin 2, win0_4.index t a * S8x128.size a ≤ (i a).val
      ∧ (i a).val < win0_4.index t a * S8x128.size a + S8x128.size a := by
  show i ∈ ((View.whole main_v0).slice (win0_4.rect t)).set ↔ _
  rw [View.set_slice_whole, Rect.mem_set_unit]
  exact Iff.rfl

/-- The tiles cover the result: entry (r, c) is in the tile at block (r / 8, c / 128). -/
theorem tiles_cover (i : S256x1024.Idx) :
    ∃ t : Fin cfg0.N, (cfg0.win 4).flush t = true ∧ i ∈ ((cfg0.win 4).blk t).view.set := by
  have hi0 : (i 0).val < 256 := (i 0).isLt
  have hi1 : (i 1).val < 1024 := (i 1).isLt
  obtain ⟨t, ht⟩ := every_tile ⟨(i 0).val / 8, by omega⟩ ⟨(i 1).val / 128, by omega⟩
  have q0 : win0_4.index t (0 : Fin 2) = (i 0).val / 8 := congrFun ht 0
  have q1 : win0_4.index t (1 : Fin 2) = (i 1).val / 128 := congrFun ht 1
  refine ⟨t, flush0_4 t, ?_⟩
  rw [in_tile]
  intro a
  match a with
  | ⟨0, _⟩ => show win0_4.index t (0 : Fin 2) * 8 ≤ (i 0).val ∧ (i 0).val < win0_4.index t (0 : Fin 2) * 8 + 8; omega
  | ⟨1, _⟩ => show win0_4.index t (1 : Fin 2) * 128 ≤ (i 1).val ∧ (i 1).val < win0_4.index t (1 : Fin 2) * 128 + 128; omega

/-- The result array after the run is `layer` of the argument arrays. -/
theorem result_array (c : Dev nD) :
    (dats m 0 c).arrAt 4 cfg0.N = layer (m ((c : Thread nD τ).loc main_arg0)) (m ((c : Thread nD τ).loc main_arg1))
      (m ((c : Thread nD τ).loc main_arg2)) (m ((c : Thread nD τ).loc main_arg3)) :=
  (dats m 0 c).arrAt_eq_of_cover 4
    (layer (V m c main_arg0) (V m c main_arg1) (V m c main_arg2) (V m c main_arg3))
    (fun t _ => tile_written m c t) tiles_cover

/-- The kernel's run, read: the result array at `layer` of the arguments, the arguments unchanged. -/
theorem run : θ_run defs (onTc (τ := τ) (main (F := Ideal))) ⟨m, fun _ => 0, ρ⟩ fun r => ∀ c : Dev nD,
      r.2.mem ((c : Thread nD τ).loc main_v0) = layer (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result_array m c), (h c).2⟩) (Value.run_blocks m ρ)

end Cert.Wavelet.Tiles

end
-- ==== Proof.lean ====
/-
  A wavelet network layer with the derivative-of-Gaussian wavelet, as a tiled kernel against its array reference.

  Both programs compute, for a batch row b and an output feature o,

      out[b, o] = ∑ᵢ w[o, i] · ψ((x[b, i] − t[o, i]) / s[o, i]),     ψ(z) = (−z) · exp((−½ · z) · z),

  over x : [256, 1024] and w, s, t : [1024, 1024] (`Cert.Wavelet.layer`). The kernel walks an 8 × 32 grid; each point
  takes 8 rows of x and 128 rows of w, s, t, spreads them to [8, 128, 1024], applies the formula there and sums the
  last axis into one [8, 128] tile of the result. The reference spreads the whole arrays to [256, 1024, 1024], applies
  the same formula and sums the last axis. On the extended reals the two agree term by term: the quotient, the
  exponential and −½ are the same on both sides and are grouped the same way, the kernel's `0 − z` is the reference's
  `−z`, and the reference's sum starts from 0. No law that could fail at an infinity (distributivity, cancelling) is
  used, so the inputs' finiteness is never opened.

  The pieces: `Wavelet` states the layer; `HostSide` reads the reference's last stage as the layer; `TileSide` reads
  one stored tile as the layer on its rows; `Tiles` places the 256 tiles in the result array and reads the kernel's
  run. The kernel's frames are the generated ones; the reference's frame is its run with the result dropped; the
  idealization rewrote nothing, so `preserves` is `True`.
-/
import proofs.«134521_j78512002171115_1_alg».proof.Defs
import proofs.«134521_j78512002171115_1_alg».proof.Proof.Gen.Kernel
import proofs.«134521_j78512002171115_1_alg».proof.Proof.Gen.Kernel.Skeleton
import proofs.«134521_j78512002171115_1_alg».proof.Proof.Gen.Kernel.Launch
import proofs.«134521_j78512002171115_1_alg».proof.Proof.Gen.Kernel.Points
import proofs.«134521_j78512002171115_1_alg».proof.Proof.Gen.Kernel.Frame
import proofs.«134521_j78512002171115_1_alg».proof.Proof.Gen.KernelIdeal
import proofs.«134521_j78512002171115_1_alg».proof.Proof.Gen.KernelIdeal.Skeleton
import proofs.«134521_j78512002171115_1_alg».proof.Proof.Gen.KernelIdeal.Launch
import proofs.«134521_j78512002171115_1_alg».proof.Proof.Gen.KernelIdeal.Points
import proofs.«134521_j78512002171115_1_alg».proof.Proof.Gen.KernelIdeal.Frame
import proofs.«134521_j78512002171115_1_alg».proof.Proof.Gen.ReferenceIdeal
import proofs.«134521_j78512002171115_1_alg».proof.Proof.Gen.Pre_finite_inputs
import proofs.«134521_j78512002171115_1_alg».proof.Proof.Gen.KernelIdeal.Value
import proofs.«134521_j78512002171115_1_alg».proof.Proof.Gen.ReferenceIdeal.Run
import proofs.«134521_j78512002171115_1_alg».proof.Proof.Gen.ReferenceIdeal.Read
import proofs.«134521_j78512002171115_1_alg».proof.Proof.Wavelet
import proofs.«134521_j78512002171115_1_alg».proof.Proof.HostSide
import proofs.«134521_j78512002171115_1_alg».proof.Proof.TileSide
import proofs.«134521_j78512002171115_1_alg».proof.Proof.Tiles
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments unchanged: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The kernel's result array ends at `layer` of its arguments (`Tiles.run`), the reference's at its last stage of its
    own arguments, which is `layer` of them (`HostSide.stage_eq_layer`); the arguments agree. -/
theorem algebraic : Cert.algebraic_KernelIdeal_ReferenceIdeal := by
  intro m ρ m' ρ' _ hagree
  refine ⟨_, Cert.Wavelet.Tiles.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v17_eq (F := Ideal) _ _ _ _).trans
    (Cert.Wavelet.HostSide.stage_eq_layer _ _ _ _)).trans ?_
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
